-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S65536 : Shape := ⟨1, ![65536]⟩
abbrev S4096 : Shape := ⟨1, ![4096]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S512x65536 .f32) (main_arg1 : IVec S65536 32) (main_arg2 : FVec F S4096 .f32) (main_arg3 : FVec F S4096 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S512x65536 : Shape := ⟨2, ![512, 65536]⟩
abbrev S65536 : Shape := ⟨1, ![65536]⟩
abbrev S4096 : Shape := ⟨1, ![4096]⟩
abbrev S1x65536 : Shape := ⟨2, ![1, 65536]⟩
abbrev S512x4096 : Shape := ⟨2, ![512, 4096]⟩
abbrev S1x4096 : Shape := ⟨2, ![1, 4096]⟩
abbrev S_ : Shape := ⟨0, ![]⟩
abbrev S65536x1 : Shape := ⟨2, ![65536, 1]⟩
abbrev S512x2048 : Shape := ⟨2, ![512, 2048]⟩
abbrev S1x2048 : Shape := ⟨2, ![1, 2048]⟩
abbrev S512x65536x1 : Shape := ⟨3, ![512, 65536, 1]⟩

abbrev nBuf : Space → Nat
  | .hbm => 64
  | .vmem => 14
  | .smem => 0
  | _ => 0

abbrev bufTy : (tb : Table) → Fin (tcTables nBuf tb) → BufTy
  | .hbm, ⟨0, _⟩ => ⟨S512x65536, .f32⟩
  | .hbm, ⟨1, _⟩ => ⟨S65536, .i32⟩
  | .hbm, ⟨2, _⟩ => ⟨S4096, .f32⟩
  | .hbm, ⟨3, _⟩ => ⟨S4096, .f32⟩
  | .hbm, ⟨4, _⟩ => ⟨S1x65536, .f32⟩
  | .hbm, ⟨5, _⟩ => ⟨S1x65536, .f32⟩
  | .hbm, ⟨6, _⟩ => ⟨S65536, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S_, .f32⟩
  | .hbm, ⟨11, _⟩ => ⟨S4096, .f32⟩
  | .hbm, ⟨12, _⟩ => ⟨S65536x1, .i32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S65536x1, .i32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S65536x1, .i32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S65536x1, .i32⟩
  | .hbm, ⟨50, _⟩ => ⟨S65536, .f32⟩
  | .hbm, ⟨51, _⟩ => ⟨S1x65536, .f32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536, .f32⟩
  | .hbm, ⟨61, _⟩ => ⟨S1x65536, .f32⟩
  | .hbm, ⟨62, _⟩ => ⟨S512x65536, .f32⟩
  | .hbm, ⟨63, _⟩ => ⟨S512x65536x1, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x65536_S65536 : S1x65536.ShapeCasts S65536
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  shapeCasts_S65536_S1x65536 : S65536.ShapeCasts S1x65536
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bcast_S512x65536_S512x65536x1_0_1 : S512x65536.BroadcastsInDim S512x65536x1 (![0, 1] : Fin 2 → Fin S512x65536x1.rank)
  scatter_S4096_S65536x1_S65536_n_0_0_1_wf : ScatterDims.WF S4096 S65536x1 S65536 [] [0] [0] 1
  gather_S4096_S65536x1_S65536_n_0_n_n_0_1_1_wf : GatherDims.WF S4096 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x65536.size a
  hwx0_0 : ∀ i : grid0.Coords, EltTy.bits .f32 = 32 ∨ (Rect.block (s := S512x65536) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x65536.size a
  hwx0_1 : ∀ i : grid0.Coords, EltTy.bits .f32 = 32 ∨ (Rect.block (s := S1x65536) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x65536.size a
  hwx0_2 : ∀ i : grid0.Coords, EltTy.bits .f32 = 32 ∨ (Rect.block (s := S1x65536) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x65536.size a
  hwx1_0 : ∀ i : grid1.Coords, EltTy.bits .f32 = 32 ∨ (Rect.block (s := S512x65536) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x65536.size a
  hwx1_1 : ∀ i : grid1.Coords, EltTy.bits .f32 = 32 ∨ (Rect.block (s := S1x65536) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x65536.size a
  hwx1_2 : ∀ i : grid1.Coords, EltTy.bits .f32 = 32 ∨ (Rect.block (s := S1x65536) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S512x65536.size a
  hwx1_3 : ∀ i : grid1.Coords, EltTy.bits .f32 = 32 ∨ (Rect.block (s := S512x65536) S512x2048.size (cc1_transform_3 i) (hinb1_3 i)).WholeWords (EltTy.packing .f32)

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096_S65536x1_S65536_n_0_n_n_0_1_1 : GatherDims S4096 S65536x1 S65536 where
  offsetDims := []
  collapsedSliceDims := [0]
  operandBatchingDims := []
  startIndicesBatchingDims := []
  startIndexMap := [0]
  indexVectorDim := 1
  sliceSizes := ![1]
  wf := gather_S4096_S65536x1_S65536_n_0_n_n_0_1_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x65536 : Shape := ⟨2, ![512, 65536]⟩
abbrev S65536 : Shape := ⟨1, ![65536]⟩
abbrev S4096 : Shape := ⟨1, ![4096]⟩
abbrev S_ : Shape := ⟨0, ![]⟩
abbrev S65536x1 : Shape := ⟨2, ![65536, 1]⟩
abbrev S1x65536 : Shape := ⟨2, ![1, 65536]⟩
abbrev S512x65536x1 : Shape := ⟨3, ![512, 65536, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S65536, .i32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S65536, .f32⟩
  | .hbm, ⟨6, _⟩ => ⟨S_, .f32⟩
  | .hbm, ⟨7, _⟩ => ⟨S4096, .f32⟩
  | .hbm, ⟨8, _⟩ => ⟨S65536x1, .i32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S4096, .f32⟩
  | .hbm, ⟨20, _⟩ => ⟨S65536x1, .i32⟩
  | .hbm, ⟨21, _⟩ => ⟨S4096, .f32⟩
  | .hbm, ⟨22, _⟩ => ⟨S512x65536, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S4096, .f32⟩
  | .hbm, ⟨27, _⟩ => ⟨S65536x1, .i32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536, .f32⟩
  | .hbm, ⟨49, _⟩ => ⟨S1x65536, .f32⟩
  | .hbm, ⟨50, _⟩ => ⟨S512x65536, .f32⟩
  | .hbm, ⟨51, _⟩ => ⟨S512x65536, .f32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536, .f32⟩
  | .hbm, ⟨61, _⟩ => ⟨S1x65536, .f32⟩
  | .hbm, ⟨62, _⟩ => ⟨S512x65536, .f32⟩
  | .hbm, ⟨63, _⟩ => ⟨S512x65536, .f32⟩
  | .hbm, ⟨64, _⟩ => ⟨S_, .i32⟩
  | .hbm, ⟨65, _⟩ => ⟨S65536, .i32⟩
  | .hbm, ⟨66, _⟩ => ⟨S65536, .i1⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S65536, .i32⟩
  | .hbm, ⟨71, _⟩ => ⟨S65536x1, .i32⟩
  | .hbm, ⟨72, _⟩ => ⟨S65536, .f32⟩
  | .hbm, ⟨73, _⟩ => ⟨S1x65536, .f32⟩
  | .hbm, ⟨74, _⟩ => ⟨S512x65536, .f32⟩
  | .hbm, ⟨75, _⟩ => ⟨S512x65536, .f32⟩
  | .hbm, ⟨76, _⟩ => ⟨S_, .i32⟩
  | .hbm, ⟨77, _⟩ => ⟨S65536, .i32⟩
  | .hbm, ⟨78, _⟩ => ⟨S65536, .i1⟩
  | .hbm, ⟨79, _⟩ => ⟨S_, .i32⟩
  | .hbm, ⟨80, _⟩ => ⟨S65536, .i32⟩
  | .hbm, ⟨81, _⟩ => ⟨S65536, .i32⟩
  | .hbm, ⟨82, _⟩ => ⟨S65536, .i32⟩
  | .hbm, ⟨83, _⟩ => ⟨S65536x1, .i32⟩
  | .hbm, ⟨84, _⟩ => ⟨S65536, .f32⟩
  | .hbm, ⟨85, _⟩ => ⟨S1x65536, .f32⟩
  | .hbm, ⟨86, _⟩ => ⟨S512x65536, .f32⟩
  | .hbm, ⟨87, _⟩ => ⟨S512x65536, .f32⟩
  | .hbm, ⟨88, _⟩ => ⟨S512x65536x1, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_c_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  reducesTo_S512x65536_S65536_d0 : S512x65536.ReducesTo [0] S65536
  h_S_ : 0 < S_.numel
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  bcast_S512x65536_S512x65536x1_0_1 : S512x65536.BroadcastsInDim S512x65536x1 (![0, 1] : Fin 2 → Fin S512x65536x1.rank)
  scatter_S4096_S65536x1_S65536_n_0_0_1_wf : ScatterDims.WF S4096 S65536x1 S65536 [] [0] [0] 1
  gather_S4096_S65536x1_S65536_n_0_n_n_0_1_1_wf : GatherDims.WF S4096 S65536x1 S65536 [] [0] [] [0] [] 1 ![1]

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096_S65536x1_S65536_n_0_n_n_0_1_1 : GatherDims S4096 S65536x1 S65536 where
  offsetDims := []
  collapsedSliceDims := [0]
  operandBatchingDims := []
  startIndicesBatchingDims := []
  startIndexMap := [0]
  indexVectorDim := 1
  sliceSizes := ![1]
  wf := gather_S4096_S65536x1_S65536_n_0_n_n_0_1_1_wf

class Facts : Prop extends Facts₀ where

variable [Facts]
-- ==== Proof.Spec.lean ====
/-
  Per-group normalisation over the extended reals, stated without any program.

  `C` channels are dealt into `G` groups: `A g` is the set of channels that land in group `g` (a channel may
  land in no group), and every channel `j` reads its statistics back from a group `grp j`, which need not be the
  group it landed in. With `s₁ j` and `s₂ j` the sums over the batch of channel `j`'s entries and of their squares,

      count g = max (|A g| · 512) 1,            mean g = (∑_{j ∈ A g} s₁ j) / count g,
      var g   = (∑_{j ∈ A g} s₂ j) / count g − (mean g)²,        inv g = 1 / √(var g + ε),

  and an entry `x` of channel `j`, with `g = grp j`, is sent to either of

      x · (γ g · inv g) + (β g − mean g · (γ g · inv g))        (the scale and the shift folded first)
      ((x − mean g) · inv g) · γ g + β g                         (centred, scaled, shifted in turn).

  The two agree on the reals by distributivity; on the extended reals they agree once every factor is finite,
  which for `inv` asks that `var g + ε` is not `0`: `var g ≥ 0` by the Cauchy–Schwarz inequality over the
  `|A g| · 512` entries of the group.
-/
import Idealize.ShloMosaic.PureOps.Ideal
import Idealize.ShloMosaic.Lib.ValueIdx

noncomputable section

namespace Cert.GroupStats

open Idealize.ShloMosaic Idealize.ShloMosaic.ValueIdx

/-! ## The four float words the programs spell -/

/-- `0.0`: what every sum starts from. -/
abbrev wZero : EReal := Ideal.ofBits .f32 0x00000000#32
/-- `1.0`: a channel's weight in its group's count, the floor of the count, the numerator of `inv`. -/
abbrev wOne : EReal := Ideal.ofBits .f32 0x3F800000#32
/-- `512.0`: the batch size, the number of entries a channel brings to its group. -/
abbrev wBatch : EReal := Ideal.ofBits .f32 0x44000000#32
/-- `ε`, the f32 nearest `1e-5`. -/
abbrev wEps : EReal := Ideal.ofBits .f32 0x3727C5AC#32

/-! ## The statistics of a group -/

section Stats

variable {κ ι : Type}

/-- The number of entries of group `g`, floored at one. -/
def count (A : κ → Finset ι) (g : κ) : EReal := max ((wZero + ∑ _j ∈ A g, wOne) * wBatch) wOne

/-- The mean of group `g`'s entries, from the per-channel sums `s1`. -/
def mean (A : κ → Finset ι) (s1 : ι → EReal) (g : κ) : EReal := Ideal.div (wZero + ∑ j ∈ A g, s1 j) (count A g)

/-- One over the standard deviation (variance `E[x²] − E[x]²`, plus `ε`) of group `g`'s entries. -/
def inv (A : κ → Finset ι) (s1 s2 : ι → EReal) (g : κ) : EReal :=
  Ideal.div wOne (Ideal.sqrt (Ideal.div (wZero + ∑ j ∈ A g, s2 j) (count A g) - mean A s1 g * mean A s1 g + wEps))

/-- A channel's sum over the batch. -/
def batchSum (X : Fin 512 → ι → EReal) (j : ι) : EReal := ∑ b, X b j
/-- A channel's sum of squares over the batch. -/
def batchSq (X : Fin 512 → ι → EReal) (j : ι) : EReal := ∑ b, X b j * X b j

/-- The entry with the scale `γ · inv` and the shift `β − mean · (γ · inv)` folded first. -/
def foldedForm (x γ β μ i : EReal) : EReal := x * (γ * i) + (β - μ * (γ * i))
/-- The entry centred, scaled by `inv`, then by `γ`, then shifted by `β`. -/
def centredForm (x γ β μ i : EReal) : EReal := (x - μ) * i * γ + β

end Stats

/-! ## The arrays -/

abbrev ShBC : Shape := ⟨2, ![512, 65536]⟩
abbrev ShC : Shape := ⟨1, ![65536]⟩
abbrev ShG : Shape := ⟨1, ![4096]⟩
abbrev ShBC1 : Shape := ⟨3, ![512, 65536, 1]⟩

/-- The channels an accumulating scatter with index array `sidx` lands on group `g`. -/
def landing {si : Shape} {w : Nat} (d : ScatterDims ShG si ShC) (sidx : IVec si w) (g : ShG.Idx) : Finset ShC.Idx :=
  Finset.univ.filter fun j => d.resultIdx? j sidx = some g

/-- The group a gather with index array `gidx` reads for channel `j`. -/
def group {si : Shape} {w : Nat} (dg : GatherDims ShG si ShC) (gidx : IVec si w) (j : ShC.Idx) : ShG.Idx :=
  dg.operandIdx j gidx

/-- The accumulating scatter into `x`, at group `g`: `x g` plus the updates of the channels landing there. -/
theorem hostScatterAdd_apply {si : Shape} {w : Nat} (d : ScatterDims ShG si ShC) (x : ShG.Idx → EReal) (sidx : IVec si w)
    (upd : ShC.Idx → EReal) (g : ShG.Idx) :
    Ideal.hostScatterAdd d x sidx upd g = x g + ∑ j ∈ landing d sidx g, upd j := rfl

/-- The gather of `x`, at channel `j`: `x` at the group read for `j`. -/
theorem gather_apply {α : Type} {si : Shape} {w : Nat} (dg : GatherDims ShG si ShC) (x : ShG.Idx → α) (gidx : IVec si w)
    (j : ShC.Idx) : Host.gather dg x gidx j = x (group dg gidx j) := rfl

/-- Channel `j`'s column of the `512 × 65536` array `x`. -/
def column (x : ShBC.Idx → EReal) (b : Fin 512) (j : ShC.Idx) : EReal := x (ix2 b (j 0))

/-- The `512 × 65536 × 1` result: entry `(b, c, 0)` is `form` of `x (b, c)`, of `γ` and `β` at the group channel `c`
    reads, and of that group's mean and inverse deviation. -/
def result (form : EReal → EReal → EReal → EReal → EReal → EReal) (A : ShG.Idx → Finset ShC.Idx) (grp : ShC.Idx → ShG.Idx)
    (x : ShBC.Idx → EReal) (γ β : ShG.Idx → EReal) : ShBC1.Idx → EReal := fun i =>
  form (x (ix2 (i 0) (i 1))) (γ (grp (ix1 (i 1)))) (β (grp (ix1 (i 1))))
    (mean A (batchSum (column x)) (grp (ix1 (i 1))))
    (inv A (batchSum (column x)) (batchSq (column x)) (grp (ix1 (i 1))))

end Cert.GroupStats

end
-- ==== Proof.StatsLaw.lean ====
/-
  The extended-real mathematics of per-group normalisation.

  The four float words denote `0`, `1`, `512` and a positive real `ε`. When every entry is a real number, so are a
  group's count `N = max (|A g| · 512) 1 ≥ 1`, its mean `μ = S₁ / N` and its variance `v = S₂ / N − μ²`, where
  `S₁` and `S₂` are the sums of the entries and of their squares over the `|A g| · 512` pairs (channel, batch row)
  of the group. The Cauchy–Schwarz inequality over those pairs gives `S₁² ≤ (|A g| · 512) · S₂ ≤ N · S₂`, that is
  `v ≥ 0`; hence `v + ε > 0`, its square root is a positive real and `inv = 1 / √(v + ε)` is a real. With every
  factor real, the folded and the centred form of an entry are the coercion of two real expressions that agree by
  distributivity.
-/
import proofs.«148616_j16836271800620_1_alg».proof.Proof.Spec
import Mathlib.Algebra.Order.Chebyshev
import Mathlib.Data.EReal.Operations

noncomputable section

namespace Cert.GroupStats

open Idealize.ShloMosaic

/-! ## The four float words -/

theorem wZero_eq : wZero = 0 := by
  simp [Ideal.ofBits, Ideal.ieee]

theorem wOne_eq : wOne = 1 := by
  simp [Ideal.ofBits, Ideal.ieee, -EReal.coe_mul]; norm_num

theorem wBatch_eq : wBatch = ((512 : ℝ) : EReal) := by
  simp [Ideal.ofBits, Ideal.ieee, -EReal.coe_mul]; norm_num

/-- `ε` is the dyadic rational `10995116 · 2⁻⁴⁰`; all that is used of it is that it is a positive real. -/
theorem wEps_pos : ∃ e : ℝ, 0 < e ∧ wEps = (e : EReal) := by
  simp [Ideal.ofBits, Ideal.ieee, -EReal.coe_mul]

/-! ## Coercion of finite sums and of maxima -/

/-- The coercion of the reals into the extended reals commutes with finite sums. -/
theorem coe_finsum {α : Type} (s : Finset α) (f : α → ℝ) :
    (∑ a ∈ s, (f a : EReal)) = ((∑ a ∈ s, f a : ℝ) : EReal) := by
  classical
  induction s using Finset.induction_on with
  | empty => simp
  | insert a s ha ih => rw [Finset.sum_insert ha, Finset.sum_insert ha, ih, EReal.coe_add]

/-- The coercion commutes with `max`. -/
theorem coe_max' (a b : ℝ) : max (a : EReal) (b : EReal) = ((max a b : ℝ) : EReal) :=
  (EReal.coe_strictMono.monotone.map_max).symm

section Stats

variable {κ ι : Type}

/-- The real count of group `g`. -/
def countR (A : κ → Finset ι) (g : κ) : ℝ := max (((A g).card : ℝ) * 512) 1

theorem countR_pos (A : κ → Finset ι) (g : κ) : 0 < countR A g :=
  lt_of_lt_of_le one_pos (le_max_right _ _)

theorem count_eq (A : κ → Finset ι) (g : κ) : count A g = ((countR A g : ℝ) : EReal) := by
  unfold count countR
  rw [wZero_eq, wBatch_eq, wOne_eq, zero_add, ← EReal.coe_one, coe_finsum, ← EReal.coe_mul, coe_max']
  simp

/-- The sum of the real entries of group `g`. -/
def sum1R (A : κ → Finset ι) (xr : Fin 512 → ι → ℝ) (g : κ) : ℝ := ∑ j ∈ A g, ∑ b, xr b j
/-- The sum of the squares of the real entries of group `g`. -/
def sum2R (A : κ → Finset ι) (xr : Fin 512 → ι → ℝ) (g : κ) : ℝ := ∑ j ∈ A g, ∑ b, xr b j ^ 2

theorem sum1_eq (A : κ → Finset ι) (xr : Fin 512 → ι → ℝ) (g : κ) :
    (wZero + ∑ j ∈ A g, batchSum (fun b j => (xr b j : EReal)) j) = ((sum1R A xr g : ℝ) : EReal) := by
  unfold batchSum sum1R
  rw [wZero_eq, zero_add, ← coe_finsum]
  exact Finset.sum_congr rfl fun j _ => coe_finsum _ _

theorem sum2_eq (A : κ → Finset ι) (xr : Fin 512 → ι → ℝ) (g : κ) :
    (wZero + ∑ j ∈ A g, batchSq (fun b j => (xr b j : EReal)) j) = ((sum2R A xr g : ℝ) : EReal) := by
  unfold batchSq sum2R
  rw [wZero_eq, zero_add, ← coe_finsum]
  refine Finset.sum_congr rfl fun j _ => ?_
  rw [← coe_finsum]
  exact Finset.sum_congr rfl fun b _ => by rw [← EReal.coe_mul, sq]

/-- The Cauchy–Schwarz inequality over the pairs (channel of the group, batch row): `S₁² ≤ N · S₂`. -/
theorem sq_sum1_le (A : κ → Finset ι) (xr : Fin 512 → ι → ℝ) (g : κ) :
    sum1R A xr g ^ 2 ≤ countR A g * sum2R A xr g := by
  have h2 : 0 ≤ sum2R A xr g := Finset.sum_nonneg fun j _ => Finset.sum_nonneg fun b _ => sq_nonneg _
  have hcs := sq_sum_le_card_mul_sum_sq (s := A g ×ˢ (Finset.univ : Finset (Fin 512))) (f := fun p => xr p.2 p.1)
  rw [Finset.sum_product, Finset.sum_product, Finset.card_product, Finset.card_univ, Fintype.card_fin] at hcs
  refine hcs.trans ?_
  refine mul_le_mul_of_nonneg_right ?_ h2
  unfold countR
  push_cast
  exact le_max_left _ _

/-- The real mean of group `g`. -/
def meanR (A : κ → Finset ι) (xr : Fin 512 → ι → ℝ) (g : κ) : ℝ := sum1R A xr g / countR A g
/-- The real variance of group `g`. -/
def varR (A : κ → Finset ι) (xr : Fin 512 → ι → ℝ) (g : κ) : ℝ :=
  sum2R A xr g / countR A g - meanR A xr g * meanR A xr g

/-- The variance of real entries is not negative. -/
theorem varR_nonneg (A : κ → Finset ι) (xr : Fin 512 → ι → ℝ) (g : κ) : 0 ≤ varR A xr g := by
  have hN := countR_pos A g
  have hcs := sq_sum1_le A xr g
  have h : varR A xr g = (countR A g * sum2R A xr g - sum1R A xr g ^ 2) / countR A g ^ 2 := by
    unfold varR meanR
    field_simp
  rw [h]
  exact div_nonneg (by linarith) (by positivity)

theorem mean_eq (A : κ → Finset ι) (xr : Fin 512 → ι → ℝ) (g : κ) :
    mean A (batchSum fun b j => (xr b j : EReal)) g = ((meanR A xr g : ℝ) : EReal) := by
  unfold mean meanR
  rw [sum1_eq, count_eq, Ideal.div_coe (countR_pos A g).ne', ← EReal.coe_mul, mul_one_div]

theorem inv_eq (A : κ → Finset ι) (xr : Fin 512 → ι → ℝ) (g : κ) :
    ∃ i : ℝ, inv A (batchSum fun b j => (xr b j : EReal)) (batchSq fun b j => (xr b j : EReal)) g = (i : EReal) := by
  obtain ⟨e, he, hwe⟩ := wEps_pos
  have hv := varR_nonneg A xr g
  have hpos : 0 < varR A xr g + e := by linarith
  have hs : 0 < Real.sqrt (varR A xr g + e) := Real.sqrt_pos.mpr hpos
  refine ⟨1 / Real.sqrt (varR A xr g + e), ?_⟩
  unfold inv
  rw [mean_eq, sum2_eq, count_eq, Ideal.div_coe (countR_pos A g).ne', hwe, ← EReal.coe_mul, ← EReal.coe_mul,
    ← EReal.coe_sub, ← EReal.coe_add, mul_one_div]
  change Ideal.div wOne (Ideal.sqrt ((varR A xr g + e : ℝ) : EReal)) = _
  rw [Ideal.sqrt_coe, if_neg (not_lt.mpr hpos.le), Ideal.div_coe hs.ne', wOne_eq, one_mul]

end Stats

/-! ## The two forms on reals -/

theorem foldedForm_coe (x γ β μ i : ℝ) :
    foldedForm (x : EReal) γ β μ i = ((x * (γ * i) + (β - μ * (γ * i)) : ℝ) : EReal) := by
  simp only [foldedForm, EReal.coe_mul, EReal.coe_add, EReal.coe_sub]

theorem centredForm_coe (x γ β μ i : ℝ) :
    centredForm (x : EReal) γ β μ i = (((x - μ) * i * γ + β : ℝ) : EReal) := by
  simp only [centredForm, EReal.coe_mul, EReal.coe_add, EReal.coe_sub]

/-- With every factor real the folded and the centred form agree, by distributivity. -/
theorem folded_eq_centred_coe (x γ β μ i : ℝ) :
    foldedForm (x : EReal) γ β μ i = centredForm (x : EReal) γ β μ i := by
  rw [foldedForm_coe, centredForm_coe]
  congr 1
  ring

/-! ## The law -/

theorem folded_eq_centred {κ ι : Type} (A : κ → Finset ι) (X : Fin 512 → ι → EReal) (hX : ∀ b j, ∃ r : ℝ, X b j = (r : EReal)) (g : κ)
    (x γ β : EReal) (hx : ∃ r : ℝ, x = (r : EReal)) (hγ : ∃ r : ℝ, γ = (r : EReal)) (hβ : ∃ r : ℝ, β = (r : EReal)) :
    foldedForm x γ β (mean A (batchSum X) g) (inv A (batchSum X) (batchSq X) g)
      = centredForm x γ β (mean A (batchSum X) g) (inv A (batchSum X) (batchSq X) g) := by
  choose xr hxr using hX
  obtain rfl : X = fun b j => (xr b j : EReal) := funext fun b => funext fun j => hxr b j
  obtain ⟨x, rfl⟩ := hx
  obtain ⟨γ, rfl⟩ := hγ
  obtain ⟨β, rfl⟩ := hβ
  obtain ⟨i, hi⟩ := inv_eq A xr g
  rw [mean_eq, hi]
  exact folded_eq_centred_coe x γ β _ i

theorem result_folded_eq_centred (A : ShG.Idx → Finset ShC.Idx) (grp : ShC.Idx → ShG.Idx) (x : ShBC.Idx → EReal) (γ β : ShG.Idx → EReal)
    (hx : ∀ i, ∃ r : ℝ, x i = (r : EReal)) (hγ : ∀ g, ∃ r : ℝ, γ g = (r : EReal)) (hβ : ∀ g, ∃ r : ℝ, β g = (r : EReal)) :
    result foldedForm A grp x γ β = result centredForm A grp x γ β := by
  funext i
  exact folded_eq_centred A (column x) (fun b j => hx _) _ _ _ _ (hx _) (hγ _) (hβ _)

end Cert.GroupStats

end
-- ==== Proof.Finite.lean ====
/-
  Finiteness of the inputs, read off the precondition.

  The precondition is the conjunction of three statements of one kind, one for each float input: every entry `v` of the
  array satisfies `|v| < +∞`, where `|v| = max v (−v)` over the extended reals and `+∞` is spelled by the f32 word
  `0x7F800000` (sign 0, exponent all ones, significand 0). A conjunction of bits is 1 only when both bits are 1, and
  a conjunction over all entries of an array is 1 only when it is 1 at every entry; so the precondition gives
  `max v (−v) < ⊤` at every entry `v` of each of the three float arrays. An extended real is `⊥`, a real or `⊤`: at `⊥`
  the maximum is `−⊥ = ⊤`, at `⊤` it is `⊤`, and `⊤ < ⊤` is false. Hence every entry is a real.
-/
import proofs.«148616_j16836271800620_1_alg».proof.Pre_finite_inputs
import proofs.«148616_j16836271800620_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The f32 word `0x7F800000` denotes `+∞`. -/
theorem inf_word : Ideal.ofBits .f32 0x7F800000#32 = (⊤ : EReal) := by
  simp [Ideal.ofBits, Ideal.ieee]

/-- An extended real whose absolute value `max x (−x)` lies below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The shape of a scalar has one index. -/
instance : Subsingleton Cert.Pre_finite_inputs.S_.Idx := ⟨fun a b => funext fun d => d.elim0⟩

/-- One entry of `|x| < +∞`, with `+∞` a scalar broadcast to the shape of `x`: where the comparison bit is 1, the
    entry of `x` is a real. -/
theorem real_of_cmp {s : Shape} (x : FVec Ideal s .f32)
    (hb : Cert.Pre_finite_inputs.S_.BroadcastsInDim s (![] : Fin 0 → Fin s.rank)) (i : s.Idx)
    (e : cmpf .olt (Host.absf x)
      (broadcastInDim s ![] hb (constant Cert.Pre_finite_inputs.S_ .f32 0x7F800000#32)) i = 1#1) :
    ∃ r : ℝ, x i = (r : EReal) := by
  have e' : BitVec.ofBool (decide (max (x i) (-(x i)) < Ideal.ofBits .f32 0x7F800000#32)) = 1#1 := e
  rw [inf_word] at e'
  apply real_of_abs_lt_top
  by_contra hn
  rw [decide_eq_false hn] at e'
  exact absurd e' (by decide)

/-- Under the precondition every entry of the three float inputs is a real. -/
theorem real_of_pre (x0 x1 x2 x3) (h : Cert.Pre_finite_inputs.fn (F := Ideal) x0 x1 x2 x3 = fun _ => 1#1) :
    (∀ i, ∃ r : ℝ, x0 i = (r : EReal)) ∧ (∀ g, ∃ r : ℝ, x2 g = (r : EReal)) ∧ (∀ g, ∃ r : ℝ, x3 g = (r : EReal)) := by
  have h0 := congrFun h ValueIdx.ix0
  dsimp only [Cert.Pre_finite_inputs.fn] at h0
  -- the outer conjunction: (x and γ) and β; the inner one: x and γ
  obtain ⟨h01, h3⟩ := IntOp.andi_eq_one.1 h0
  obtain ⟨h1, h2⟩ := IntOp.andi_eq_one.1 h01
  -- a conjunction over all entries that is 1 is 1 at every entry
  have e0 := fun i => Host.reduce_andi_all _ _ _ _ _ h1 i
  have e2 := fun i => Host.reduce_andi_all _ _ _ _ _ h2 i
  have e3 := fun i => Host.reduce_andi_all _ _ _ _ _ h3 i
  exact ⟨fun i => real_of_cmp x0 _ i (e0 i), fun g => real_of_cmp x2 _ g (e2 g), fun g => real_of_cmp x3 _ g (e3 g)⟩

end Cert.Finite

end
-- ==== Proof.KPayload.lean ====
/-
  The kernels' arithmetic, read at an index, at the ideal values.

  The first kernel loads a `512 × 4096` block `v` and stores two `1 × 4096` rows: entry `(0, q)` of the first is the
  sum over the 512 rows of column `q`, `∑_b v (b, q)`, and of the second the sum of the squares, `∑_b v (b, q)²`.
  The second kernel loads a `512 × 2048` block `v` and two `1 × 2048` rows `a`, `s`, and stores the block whose entry
  `(p, q)` is `v (p, q) · a (0, q) + s (0, q)`.
-/
import proofs.«148616_j16836271800620_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-- Reducing a `512 × 4096` block over its rows: the index `(q)` with row `k` put back is `(k, q)`. -/
theorem lift_rows (j : S4096.Idx) (k : Fin 512) : reduces_S512x4096_S4096.lift j k = ix2 k (j 0) := by
  funext a
  match a with
  | ⟨0, _⟩ => rfl
  | ⟨1, _⟩ => rfl

/-- The first stored row: column sums. -/
theorem pay_sum_apply (v : Vec Ideal S512x4096 .f32) (p : Fin 1) (q : Fin 4096) :
    k0_pay1 v (ix2 p q) = ∑ b : Fin 512, v (ix2 b q) := by
  unfold k0_pay1
  dsimp only
  rw [shapeCast_addUnit_apply]
  refine (Ideal.multiReduction_add_single v 0x00000000#32 reduces_S512x4096_S4096 (.inl rfl) rfl _).trans ?_
  refine Finset.sum_congr rfl fun b _ => congrArg v ?_
  funext a
  match a with
  | ⟨0, _⟩ => rfl
  | ⟨1, _⟩ => rfl

/-- The second stored row: column sums of squares. -/
theorem pay_sq_apply (v : Vec Ideal S512x4096 .f32) (p : Fin 1) (q : Fin 4096) :
    k0_pay2 v (ix2 p q) = ∑ b : Fin 512, v (ix2 b q) * v (ix2 b q) := by
  unfold k0_pay2
  dsimp only
  rw [shapeCast_addUnit_apply]
  refine (Ideal.multiReduction_add_single (mulf v v) 0x00000000#32 reduces_S512x4096_S4096 (.inl rfl) rfl _).trans ?_
  refine Finset.sum_congr rfl fun b _ => congrArg (fun i => v i * v i) ?_
  funext a
  match a with
  | ⟨0, _⟩ => rfl
  | ⟨1, _⟩ => rfl

/-- The affine map of the second kernel. -/
theorem pay_affine_apply (v : Vec Ideal S512x2048 .f32) (a s : Vec Ideal S1x2048 .f32) (p : Fin 512) (q : Fin 2048) :
    k1_pay1 v a s (ix2 p q) = v (ix2 p q) * a (ix2 0 q) + s (ix2 0 q) := by
  unfold k1_pay1
  rw [addf_apply, mulf_apply, shapeCast_self, shapeCast_self,
    broadcastTo_apply a broadcasts_S1x2048_S512x2048 (ix2 p q) (ix2 0 q) (fun d => by
      match d with
      | ⟨0, _⟩ => rfl
      | ⟨1, _⟩ => rfl),
    broadcastTo_apply s broadcasts_S1x2048_S512x2048 (ix2 p q) (ix2 0 q) (fun d => by
      match d with
      | ⟨0, _⟩ => rfl
      | ⟨1, _⟩ => rfl)]

end Cert.KernelValue

end
-- ==== Proof.KRegion0.lean ====
/-
  The first kernel's two result arrays as whole-array functions of the array it reads.

  The grid has 16 points; point `t` reads columns `4096 t … 4096 t + 4095` of the `512 × 65536` array (all 512 rows) and
  writes the same columns of two `1 × 65536` arrays. The blocks tile the columns, so after the run entry `(0, c)` of the
  first array is the column sum `∑_b x (b, c)` and of the second the column sum of squares `∑_b x (b, c)²`, whatever the
  arrays held before.
-/
import proofs.«148616_j16836271800620_1_alg».proof.Proof.Gen.KernelIdeal.Frame
import proofs.«148616_j16836271800620_1_alg».proof.Proof.KPayload
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The `512 × 65536` array the kernels read, at its literal type. -/
abbrev xarr (c : Dev nD) : S512x65536.Idx → EReal := V c main_arg0

/-- The column sums of the array the first kernel reads. -/
def colSum (c : Dev nD) : S1x65536.Idx → EReal := fun i => ∑ b : Fin 512, xarr V c (ix2 b (i 1))
/-- The column sums of squares. -/
def colSq (c : Dev nD) : S1x65536.Idx → EReal := fun i => ∑ b : Fin 512, xarr V c (ix2 b (i 1)) * xarr V c (ix2 b (i 1))

/-- The block the first kernel loads at point `t`, at its literal type. -/
abbrev xblk0 (c : Dev nD) (t : Fin cfg0.N) : Vec Ideal S512x4096 .f32 := iblk0 V c 0 t

/-- The index maps over the grid: the input's block and both outputs' blocks sit at row block 0 and at one column block,
    which stays below 16. -/
theorem idx_facts0 : ∀ t : Fin cfg0.N, win0_0.index t (0 : Fin 2) = 0
    ∧ win0_0.index t (1 : Fin 2) = win0_1.index t (1 : Fin 2)
    ∧ win0_1.index t (0 : Fin 2) = 0
    ∧ win0_2.index t (0 : Fin 2) = 0
    ∧ win0_2.index t (1 : Fin 2) = win0_1.index t (1 : Fin 2)
    ∧ win0_1.index t (1 : Fin 2) ≤ 15 :=
  (by decide +kernel : ∀ t : Fin grid0.N, _)

/-- Every column block is some point's. -/
theorem idx_onto0 : ∀ q : Fin 16, ∃ t : Fin cfg0.N, win0_1.index t (1 : Fin 2) = q.val :=
  (by decide +kernel : ∀ q : Fin 16, ∃ t : Fin grid0.N, win0_1.index t (1 : Fin 2) = q.val)

/-- An entry of the loaded block is the array's entry in the same row, `4096` columns per block further on. -/
theorem xblk0_apply (c : Dev nD) (t : Fin cfg0.N) (b : Fin 512) (q : Fin 4096) (k : S512x65536.Idx)
    (hk0 : (k 0).val = b.val) (hk1 : (k 1).val = win0_1.index t (1 : Fin 2) * 4096 + q.val) :
    xblk0 V c t (ix2 b q) = xarr V c k := by
  obtain ⟨e0, e1, -⟩ := idx_facts0 t
  show xarr V c (((cfg0.win 0).blk t).view.emb (ix2 b q)) = _
  refine congrArg _ ?_
  funext a
  apply Fin.ext
  match a with
  | ⟨0, _⟩ => show win0_0.index t (0 : Fin 2) * 512 + 1 * b.val = (k 0).val; omega
  | ⟨1, _⟩ => show win0_0.index t (1 : Fin 2) * 4096 + 1 * q.val = (k 1).val; omega

/-- What point `t` writes back to the first result is block `t` of the column sums. -/
theorem flushed0_1_eq (c : Dev nD) (t : Fin cfg0.N) :
    (dat0 V c).flushed 1 t = ((cfg0.win 1).blk t).view.read (Elt Ideal) (colSum V c) := by
  show (cfg0.win 1).cut (grid0.coords t) ((dat0 V c).after 1 t) = _
  rw [after0_1]
  unfold out0_1
  rw [View.canon_unit_zero hz]
  simp only [View.ld_unit_zero (S := S512x4096) hz]
  funext j
  obtain ⟨p, q, rfl⟩ : ∃ (p : Fin 1) (q : Fin 4096), j = ix2 p q := ⟨j 0, j 1, eq_ix2 j⟩
  show k0_pay1 (xblk0 V c t) (ix2 p q) = colSum V c (((cfg0.win 1).blk t).view.emb (ix2 p q))
  refine (pay_sum_apply (xblk0 V c t) p q).trans ?_
  unfold colSum
  refine Finset.sum_congr rfl fun b _ => ?_
  refine xblk0_apply V c t b q _ rfl ?_
  show win0_1.index t (1 : Fin 2) * 4096 + 1 * q.val = _
  omega

/-- What point `t` writes back to the second result is block `t` of the column sums of squares. -/
theorem flushed0_2_eq (c : Dev nD) (t : Fin cfg0.N) :
    (dat0 V c).flushed 2 t = ((cfg0.win 2).blk t).view.read (Elt Ideal) (colSq V c) := by
  obtain ⟨-, -, -, e3, e4, -⟩ := idx_facts0 t
  show (cfg0.win 2).cut (grid0.coords t) ((dat0 V c).after 2 t) = _
  rw [after0_2]
  unfold out0_2
  rw [View.canon_unit_zero hz]
  simp only [View.ld_unit_zero (S := S512x4096) hz]
  funext j
  obtain ⟨p, q, rfl⟩ : ∃ (p : Fin 1) (q : Fin 4096), j = ix2 p q := ⟨j 0, j 1, eq_ix2 j⟩
  show k0_pay2 (xblk0 V c t) (ix2 p q) = colSq V c (((cfg0.win 2).blk t).view.emb (ix2 p q))
  refine (pay_sq_apply (xblk0 V c t) p q).trans ?_
  unfold colSq
  refine Finset.sum_congr rfl fun b _ => ?_
  have e : xblk0 V c t (ix2 b q) = xarr V c (ix2 b ((((cfg0.win 2).blk t).view.emb (ix2 p q)) 1)) := by
    refine xblk0_apply V c t b q _ rfl ?_
    show win0_2.index t (1 : Fin 2) * 4096 + 1 * q.val = _
    omega
  rw [e]

/-- An index of a `1 × 65536` result is in point `t`'s block of the first result iff each coordinate is in the block's range. -/
theorem mem_blk0_1 (t : Fin cfg0.N) (i : S1x65536.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_v0_0).slice (win0_1.rect t)).set ↔ _
  rw [View.set_slice_whole, Rect.mem_set_unit]
  exact Iff.rfl

theorem mem_blk0_2 (t : Fin cfg0.N) (i : S1x65536.Idx) :
    i ∈ ((cfg0.win 2).blk t).view.set ↔ ∀ a : Fin 2, win0_2.index t a * S1x4096.size a ≤ (i a).val ∧ (i a).val < win0_2.index t a * S1x4096.size a + S1x4096.size a := by
  show i ∈ ((View.whole main_v0_1).slice (win0_2.rect t)).set ↔ _
  rw [View.set_slice_whole, Rect.mem_set_unit]
  exact Iff.rfl

/-- The blocks tile the first result: column `c` is in the block of the point whose column block is `c / 4096`. -/
theorem cover0_1 (i : S1x65536.Idx) : ∃ t : Fin cfg0.N, (cfg0.win 1).flush t = true ∧ i ∈ ((cfg0.win 1).blk t).view.set := by
  have hi0 : (i 0).val < 1 := (i 0).isLt
  have hi1 : (i 1).val < 65536 := (i 1).isLt
  obtain ⟨t, ht⟩ := idx_onto0 ⟨(i 1).val / 4096, by omega⟩
  obtain ⟨-, -, e2, -⟩ := idx_facts0 t
  have ht' : win0_1.index t (1 : Fin 2) = (i 1).val / 4096 := ht
  refine ⟨t, flush0_1 t, ?_⟩
  rw [mem_blk0_1]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 4096 ≤ (i 1).val ∧ (i 1).val < win0_1.index t (1 : Fin 2) * 4096 + 4096; omega

theorem cover0_2 (i : S1x65536.Idx) : ∃ t : Fin cfg0.N, (cfg0.win 2).flush t = true ∧ i ∈ ((cfg0.win 2).blk t).view.set := by
  have hi0 : (i 0).val < 1 := (i 0).isLt
  have hi1 : (i 1).val < 65536 := (i 1).isLt
  obtain ⟨t, ht⟩ := idx_onto0 ⟨(i 1).val / 4096, by omega⟩
  obtain ⟨-, -, -, e3, e4, -⟩ := idx_facts0 t
  have ht' : win0_1.index t (1 : Fin 2) = (i 1).val / 4096 := ht
  refine ⟨t, flush0_2 t, ?_⟩
  rw [mem_blk0_2]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 4096 ≤ (i 1).val ∧ (i 1).val < win0_2.index t (1 : Fin 2) * 4096 + 4096; omega

/-- The first result after the run: the column sums. -/
theorem final0_1 (c : Dev nD) : (dat0 V c).arrAt 1 cfg0.N = colSum V c :=
  (dat0 V c).arrAt_eq_of_cover 1 (colSum V c) (fun t _ => flushed0_1_eq V c t) cover0_1

/-- The second result after the run: the column sums of squares. -/
theorem final0_2 (c : Dev nD) : (dat0 V c).arrAt 2 cfg0.N = colSq V c :=
  (dat0 V c).arrAt_eq_of_cover 2 (colSq V c) (fun t _ => flushed0_2_eq V c t) cover0_2

end Cert.KernelValue

end
-- ==== Proof.KRegion1.lean ====
/-
  The second kernel's result array as a whole-array function of the three arrays it reads.

  The grid has 32 points; point `t` reads columns `2048 t … 2048 t + 2047` of the `512 × 65536` array `x` (all 512 rows)
  and of the two `1 × 65536` rows `a` (the scale) and `s` (the shift), and writes the same columns of the `512 × 65536`
  result. The blocks tile the result, so after the run its entry `(b, c)` is `x (b, c) · a (0, c) + s (0, c)`.
-/
import proofs.«148616_j16836271800620_1_alg».proof.Proof.Gen.KernelIdeal.Frame
import proofs.«148616_j16836271800620_1_alg».proof.Proof.KPayload
import proofs.«148616_j16836271800620_1_alg».proof.Proof.KRegion0
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The scale row the second kernel reads, at its literal type. -/
abbrev arow (c : Dev nD) : S1x65536.Idx → EReal := V c main_v36
/-- The shift row the second kernel reads, at its literal type. -/
abbrev srow (c : Dev nD) : S1x65536.Idx → EReal := V c main_v44

/-- Every entry scaled by its column's scale and shifted by its column's shift. -/
def affine (c : Dev nD) : S512x65536.Idx → EReal := fun i => xarr V c i * arow V c (ix2 0 (i 1)) + srow V c (ix2 0 (i 1))

/-- The three blocks the second kernel loads at point `t`, at their literal types. -/
abbrev xblk1 (c : Dev nD) (t : Fin cfg1.N) : Vec Ideal S512x2048 .f32 := iblk1 V c 0 t
abbrev ablk1 (c : Dev nD) (t : Fin cfg1.N) : Vec Ideal S1x2048 .f32 := iblk1 V c 1 t
abbrev sblk1 (c : Dev nD) (t : Fin cfg1.N) : Vec Ideal S1x2048 .f32 := iblk1 V c 2 t

/-- The index maps over the grid: all four blocks sit at row block 0 and at one column block, which stays below 32. -/
theorem idx_facts1 : ∀ t : Fin cfg1.N, win1_0.index t (0 : Fin 2) = 0
    ∧ win1_0.index t (1 : Fin 2) = win1_3.index t (1 : Fin 2)
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) = 0
    ∧ win1_3.index t (1 : Fin 2) ≤ 31 :=
  (by decide +kernel : ∀ t : Fin grid1.N, _)

/-- Every column block is some point's. -/
theorem idx_onto1 : ∀ q : Fin 32, ∃ t : Fin cfg1.N, win1_3.index t (1 : Fin 2) = q.val :=
  (by decide +kernel : ∀ q : Fin 32, ∃ t : Fin grid1.N, win1_3.index t (1 : Fin 2) = q.val)

/-- What point `t` writes back is block `t` of the scaled and shifted array. -/
theorem flushed1_3_eq (c : Dev nD) (t : Fin cfg1.N) :
    (dat1 V c).flushed 3 t = ((cfg1.win 3).blk t).view.read (Elt Ideal) (affine V c) := by
  obtain ⟨e0, e1, e2, e3, e4, e5, e6, -⟩ := idx_facts1 t
  show (cfg1.win 3).cut (grid1.coords t) ((dat1 V c).after 3 t) = _
  rw [after1_3]
  unfold out1_3
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k1_pay1 (xblk1 V c t) (ablk1 V c t) (sblk1 V c t) (ix2 p q) = affine V c (((cfg1.win 3).blk t).view.emb (ix2 p q))
  refine (pay_affine_apply (xblk1 V c t) (ablk1 V c t) (sblk1 V c t) p q).trans ?_
  unfold affine
  have ex : xblk1 V c t (ix2 p q) = xarr V c (((cfg1.win 3).blk t).view.emb (ix2 p q)) := by
    show xarr V c (((cfg1.win 0).blk t).view.emb (ix2 p q)) = _
    refine congrArg _ ?_
    funext a
    apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * q.val = win1_3.index t (1 : Fin 2) * 2048 + 1 * q.val; omega
  have ea : ablk1 V c t (ix2 0 q) = arow V c (ix2 0 ((((cfg1.win 3).blk t).view.emb (ix2 p q)) 1)) := by
    show arow V c (((cfg1.win 1).blk t).view.emb (ix2 0 q)) = _
    refine congrArg _ ?_
    funext a
    apply Fin.ext
    match a with
    | ⟨0, _⟩ => show win1_1.index t (0 : Fin 2) * 1 + 1 * 0 = 0; omega
    | ⟨1, _⟩ => show win1_1.index t (1 : Fin 2) * 2048 + 1 * q.val = win1_3.index t (1 : Fin 2) * 2048 + 1 * q.val; omega
  have es : sblk1 V c t (ix2 0 q) = srow V c (ix2 0 ((((cfg1.win 3).blk t).view.emb (ix2 p q)) 1)) := by
    show srow V c (((cfg1.win 2).blk t).view.emb (ix2 0 q)) = _
    refine congrArg _ ?_
    funext a
    apply Fin.ext
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega
  rw [ex, ea, es]

/-- An index of the result is in point `t`'s block iff each coordinate is in the block's range. -/
theorem mem_blk1_3 (t : Fin cfg1.N) (i : S512x65536.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v45).slice (win1_3.rect t)).set ↔ _
  rw [View.set_slice_whole, Rect.mem_set_unit]
  exact Iff.rfl

/-- The blocks tile the result: column `c` is in the block of the point whose column block is `c / 2048`. -/
theorem cover1_3 (i : S512x65536.Idx) : ∃ t : Fin cfg1.N, (cfg1.win 3).flush t = true ∧ i ∈ ((cfg1.win 3).blk t).view.set := by
  have hi0 : (i 0).val < 512 := (i 0).isLt
  have hi1 : (i 1).val < 65536 := (i 1).isLt
  obtain ⟨t, ht⟩ := idx_onto1 ⟨(i 1).val / 2048, by omega⟩
  obtain ⟨-, -, -, -, -, -, e6, -⟩ := idx_facts1 t
  have ht' : win1_3.index t (1 : Fin 2) = (i 1).val / 2048 := ht
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The result after the run: every entry scaled and shifted by its column's pair. -/
theorem final1_3 (c : Dev nD) : (dat1 V c).arrAt 3 cfg1.N = affine V c :=
  (dat1 V c).arrAt_eq_of_cover 3 (affine V c) (fun t _ => flushed1_3_eq V c t) (cover1_3)

end Cert.KernelValue

end
-- ==== Proof.KHost.lean ====
/-
  The host operations between the two kernels, as one function of the first kernel's two result rows, the channel-to-group
  table and the two parameter vectors; and that function read at an index.

  From the column sums `s₁` and the column sums of squares `s₂` (each a `1 × 65536` row, flattened), the table `cg`,
  `γ` and `β`: the group counts, means and inverse deviations (three accumulating scatters over `cg`), the folded scale
  `γ · inv` and shift `β − mean · (γ · inv)` per group, and their gathers back to channels (over `cg` with a negative
  entry wrapped by 4096), laid out as `1 × 65536` rows. Read at column `q`, with `g` the group the gather reads for `q`:
  the scale row holds `γ g · inv g` and the shift row `β g − mean g · (γ g · inv g)`, where `mean` and `inv` are the
  statistics of the channels the scatters land on `g`.
-/
import proofs.«148616_j16836271800620_1_alg».proof.Proof.Gen.KernelIdeal.Launch
import proofs.«148616_j16836271800620_1_alg».proof.Proof.Spec
import Idealize.ShloMosaic.Lib.StableHlo.Run
import Idealize.ShloMosaic.Lib.Pipeline.Value
import Idealize.ShloMosaic.PureOps.Ideal

set_option maxRecDepth 16384

noncomputable section

namespace Cert.KernelValue

open Cert.KernelIdeal Cert.KernelIdeal.Gen Idealize.ShloMosaic Idealize.ShloMosaic.TcCoe Idealize.ShloMosaic.ValueIdx
open Idealize.ShloMosaic.StableHlo Idealize.SL.Sem
open Cert.GroupStats

section Terms

variable (s1a s2a : S1x65536.Idx → EReal) (cg : IVec S65536 32) (gam bet : S4096.Idx → EReal)

/-- The scatters' index column: the table itself. -/
def sidx : IVec S65536x1 32 := broadcastInDim S65536x1 ![0] bcast_S65536_S65536x1_0 cg
/-- The gathers' index column: the table with a negative entry wrapped by 4096. -/
def gidx : IVec S65536x1 32 :=
  broadcastInDim S65536x1 ![0] bcast_S65536_S65536x1_0
    (select (cmpi .slt cg (broadcastInDim S65536 ![] bcast_S_S65536 (constantI S_ 32 0#32)))
      (addi cg (broadcastInDim S65536 ![] bcast_S_S65536 (constantI S_ 32 4096#32))) cg)

/-- The four float constants, one per group. -/
def zeroG : FVec Ideal S4096 .f32 := broadcastInDim S4096 ![] bcast_S_S4096 (constant S_ .f32 0x00000000#32)
def oneG : FVec Ideal S4096 .f32 := broadcastInDim S4096 ![] bcast_S_S4096 (constant S_ .f32 0x3F800000#32)
def batchG : FVec Ideal S4096 .f32 := broadcastInDim S4096 ![] bcast_S_S4096 (constant S_ .f32 0x44000000#32)
def epsG : FVec Ideal S4096 .f32 := broadcastInDim S4096 ![] bcast_S_S4096 (constant S_ .f32 0x3727C5AC#32)
/-- One per channel: a channel's weight in its group's count. -/
def oneC : FVec Ideal S65536 .f32 := broadcastInDim S65536 ![] bcast_S_S65536 (constant S_ .f32 0x3F800000#32)

/-- A `1 × 65536` row flattened to its 65536 entries. -/
def flat (r : S1x65536.Idx → EReal) : FVec Ideal S65536 .f32 := fun i => shapeCast S65536 r shapeCasts_S1x65536_S65536 i

/-- The entries per group, floored at one. -/
def countV : FVec Ideal S4096 .f32 :=
  maximumf (mulf (Host.scatterAdd scatter_S4096_S65536x1_S65536_n_0_0_1 zeroG (sidx cg) oneC) batchG) oneG
/-- The mean per group. -/
def meanV : FVec Ideal S4096 .f32 :=
  Host.divf (Host.scatterAdd scatter_S4096_S65536x1_S65536_n_0_0_1 zeroG (sidx cg) (flat s1a)) (countV cg)
/-- One over the standard deviation per group. -/
def invV : FVec Ideal S4096 .f32 :=
  Host.divf oneG (Host.sqrt (addf (subf
    (Host.divf (Host.scatterAdd scatter_S4096_S65536x1_S65536_n_0_0_1 zeroG (sidx cg) (flat s2a)) (countV cg))
    (mulf (meanV s1a cg) (meanV s1a cg))) epsG))
/-- The folded scale per group. -/
def scaleG : FVec Ideal S4096 .f32 := mulf gam (invV s1a s2a cg)
/-- The folded shift per group. -/
def shiftG : FVec Ideal S4096 .f32 := subf bet (mulf (meanV s1a cg) (scaleG s1a s2a cg gam))
/-- The scale gathered to channels, as a row. -/
def scaleRow : S1x65536.Idx → EReal := fun i =>
  shapeCast S1x65536 (Host.gather gather_S4096_S65536x1_S65536_n_0_n_n_0_1_1 (scaleG s1a s2a cg gam) (gidx cg)) shapeCasts_S65536_S1x65536 i
/-- The shift gathered to channels, as a row. -/
def shiftRow : S1x65536.Idx → EReal := fun i =>
  shapeCast S1x65536 (Host.gather gather_S4096_S65536x1_S65536_n_0_n_n_0_1_1 (shiftG s1a s2a cg gam bet) (gidx cg)) shapeCasts_S65536_S1x65536 i

/-! ## Read at an index -/

/-- The channels the scatters land on a group. -/
abbrev lands : S4096.Idx → Finset S65536.Idx := landing scatter_S4096_S65536x1_S65536_n_0_0_1 (sidx cg)
/-- The group the gathers read for a channel. -/
abbrev reads : S65536.Idx → S4096.Idx := group gather_S4096_S65536x1_S65536_n_0_n_n_0_1_1 (gidx cg)

theorem zeroG_apply (g : S4096.Idx) : zeroG g = wZero := rfl
theorem oneG_apply (g : S4096.Idx) : oneG g = wOne := rfl
theorem batchG_apply (g : S4096.Idx) : batchG g = wBatch := rfl
theorem epsG_apply (g : S4096.Idx) : epsG g = wEps := rfl
theorem oneC_apply (j : S65536.Idx) : oneC j = wOne := rfl

/-- An accumulating scatter into zeros, at group `g`: zero plus the updates of the channels landing on `g`. -/
theorem scatter_zero_apply (upd : FVec Ideal S65536 .f32) (g : S4096.Idx) :
    Host.scatterAdd scatter_S4096_S65536x1_S65536_n_0_0_1 zeroG (sidx cg) upd g = wZero + ∑ j ∈ lands cg g, upd j := by
  unfold Host.scatterAdd
  rw [Ideal.hostScatterAdd_def, hostScatterAdd_apply, zeroG_apply]

theorem countV_apply (g : S4096.Idx) : countV cg g = count (lands cg) g := by
  unfold countV GroupStats.count
  simp only [maximumf, mulf, Ideal.maximumf_def, Ideal.mulf_def, scatter_zero_apply, oneC_apply, batchG_apply, oneG_apply]

theorem meanV_apply (g : S4096.Idx) : meanV s1a cg g = mean (lands cg) (flat s1a) g := by
  unfold meanV GroupStats.mean
  simp only [Host.divf, Ideal.hostDivf_def, scatter_zero_apply, countV_apply]

theorem invV_apply (g : S4096.Idx) : invV s1a s2a cg g = inv (lands cg) (flat s1a) (flat s2a) g := by
  unfold invV GroupStats.inv
  simp only [Host.divf, Host.sqrt, addf, subf, mulf, Ideal.hostDivf_def, Ideal.hostUnary_sqrt_def, Ideal.addf_def, Ideal.subf_def,
    Ideal.mulf_def, scatter_zero_apply, countV_apply, meanV_apply, oneG_apply, epsG_apply]

/-- The scale row at column `q`. -/
theorem scaleRow_apply (p : Fin 1) (q : Fin 65536) :
    scaleRow s1a s2a cg gam (ix2 p q)
      = gam (reads cg (ix1 q)) * inv (lands cg) (flat s1a) (flat s2a) (reads cg (ix1 q)) := by
  unfold scaleRow
  rw [shapeCast_addUnit_apply]
  have e : (fun a : Fin 1 => (ix2 p q : S1x65536.Idx) a.succ) = (ix1 q : S65536.Idx) := by
    funext a
    match a with
    | ⟨0, _⟩ => rfl
  rw [e, gather_apply]
  unfold scaleG
  rw [mulf_apply, invV_apply]

/-- The shift row at column `q`. -/
theorem shiftRow_apply (p : Fin 1) (q : Fin 65536) :
    shiftRow s1a s2a cg gam bet (ix2 p q)
      = bet (reads cg (ix1 q)) - mean (lands cg) (flat s1a) (reads cg (ix1 q))
          * (gam (reads cg (ix1 q)) * inv (lands cg) (flat s1a) (flat s2a) (reads cg (ix1 q))) := by
  unfold shiftRow
  rw [shapeCast_addUnit_apply]
  have e : (fun a : Fin 1 => (ix2 p q : S1x65536.Idx) a.succ) = (ix1 q : S65536.Idx) := by
    funext a
    match a with
    | ⟨0, _⟩ => rfl
  rw [e, gather_apply]
  unfold shiftG scaleG
  rw [subf_apply, mulf_apply, mulf_apply, meanV_apply, invV_apply]

/-- A flattened row at channel `j` is the row's entry in column `j`. -/
theorem flat_apply (r : S1x65536.Idx → EReal) (q : Fin 65536) : flat r (ix1 q) = r (ix2 0 q) := by
  unfold flat
  rw [shapeCast_dropUnit_apply]
  refine congrArg r ?_
  funext a
  match a with
  | ⟨0, _⟩ => rfl
  | ⟨1, _⟩ => rfl

end Terms

/-! ## The stretch of host operations is that function -/

/-- After the host operations between the kernels the scale row's buffer holds `scaleRow` of what the stretch found. -/
theorem host1_scale (W : Valuation τ sig (Elt Ideal)) :
    StableHlo.after (hostOps1 (F := Ideal)) W (Proc.devRef .tc main_v36)
      = scaleRow (W (Proc.devRef .tc main_v0_0)) (W (Proc.devRef .tc main_v0_1)) (W (Proc.devRef .tc main_arg1)) (W (Proc.devRef .tc main_arg2)) := by
  after_results_simp
  rfl

/-- And the shift row's buffer holds `shiftRow`. -/
theorem host1_shift (W : Valuation τ sig (Elt Ideal)) :
    StableHlo.after (hostOps1 (F := Ideal)) W (Proc.devRef .tc main_v44)
      = shiftRow (W (Proc.devRef .tc main_v0_0)) (W (Proc.devRef .tc main_v0_1)) (W (Proc.devRef .tc main_arg1)) (W (Proc.devRef .tc main_arg2)) (W (Proc.devRef .tc main_arg3)) := by
  after_results_simp
  rfl

end Cert.KernelValue

end
-- ==== Proof.KValue.lean ====
/-
  The kernel program's result as one function of its four arguments.

  @main runs the first kernel (column sums and column sums of squares of `x`), a stretch of host operations (the group
  statistics, folded into one scale and one shift per group, gathered back to channels), the second kernel (every entry
  scaled and shifted by its column's pair) and one more host operation (a trailing unit axis). Following the contents of
  the buffers from one boundary to the next, entry `(b, c, 0)` of the result is
  `x (b, c) · (γ g · inv g) + (β g − mean g · (γ g · inv g))` with `g` the group read for channel `c`: the folded form
  of the per-group normalisation.
-/
import proofs.«148616_j16836271800620_1_alg».proof.Proof.Gen.KernelIdeal.Frame
import proofs.«148616_j16836271800620_1_alg».proof.Proof.KLaunch
import proofs.«148616_j16836271800620_1_alg».proof.Proof.KRegion0
import proofs.«148616_j16836271800620_1_alg».proof.Proof.KRegion1
import proofs.«148616_j16836271800620_1_alg».proof.Proof.KHost
import proofs.«148616_j16836271800620_1_alg».proof.Proof.Spec

set_option maxRecDepth 16384

noncomputable section

namespace Cert.KernelValue

open Cert.KernelIdeal Cert.KernelIdeal.Gen Idealize.ShloMosaic Idealize.ShloMosaic.TcCoe Idealize.ShloMosaic.ValueIdx
open Idealize.ShloMosaic.StableHlo Idealize.SL.Sem
open Cert.GroupStats

variable (m : (ℓ : Loc nD τ sig) → Buf (Elt Ideal) ℓ) (ρ : Dev nD → PrngReg)

/-- The four arguments as launched, at their literal types. -/
abbrev argX (c : Dev nD) : S512x65536.Idx → EReal := m ((c.tc : Thread nD τ).loc main_arg0)
abbrev argCg (c : Dev nD) : IVec S65536 32 := m ((c.tc : Thread nD τ).loc main_arg1)
abbrev argGam (c : Dev nD) : S4096.Idx → EReal := m ((c.tc : Thread nD τ).loc main_arg2)
abbrev argBet (c : Dev nD) : S4096.Idx → EReal := m ((c.tc : Thread nD τ).loc main_arg3)

/-! ## After the first kernel -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)

/-- The first result row holds the column sums of `x`. -/
theorem W1_sums (c : Dev nD) : W1 m ρ c (Proc.devRef .tc main_v0_0) = colSum (V0 m ρ) c :=
  (W1_arr m ρ c 1).trans (final0_1 (V0 m ρ) c)
/-- The second the column sums of squares. -/
theorem W1_sqs (c : Dev nD) : W1 m ρ c (Proc.devRef .tc main_v0_1) = colSq (V0 m ρ) c :=
  (W1_arr m ρ c 2).trans (final0_2 (V0 m ρ) c)

/-! ## After the host operations between the kernels -/

theorem W2_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg0 m ρ c)

/-- The scale row, from the column sums, the table and `γ`. -/
theorem W2_scale (c : Dev nD) : W2 m ρ c (Proc.devRef .tc main_v36)
    = scaleRow (colSum (V0 m ρ) c) (colSq (V0 m ρ) c) (argCg m c) (argGam m c) := by
  show StableHlo.after (hostOps1 (F := Ideal)) (W1 m ρ c) (Proc.devRef .tc main_v36) = _
  rw [host1_scale, W1_sums, W1_sqs, W1_arg1, W1_arg2]

/-- The shift row, from the same and `β`. -/
theorem W2_shift (c : Dev nD) : W2 m ρ c (Proc.devRef .tc main_v44)
    = shiftRow (colSum (V0 m ρ) c) (colSq (V0 m ρ) c) (argCg m c) (argGam m c) (argBet m c) := by
  show StableHlo.after (hostOps1 (F := Ideal)) (W1 m ρ c) (Proc.devRef .tc main_v44) = _
  rw [host1_shift, W1_sums, W1_sqs, W1_arg1, W1_arg2, W1_arg3]

/-! ## After the second kernel, and the last host operation -/

theorem W3_out (c : Dev nD) : W3 m ρ c (Proc.devRef .tc main_v45) = affine (V2 m ρ) c :=
  (W3_arr m ρ c 3).trans (final1_3 (V2 m ρ) c)

theorem W4_out (c : Dev nD) : W4 m ρ c (Proc.devRef .tc main_v46)
    = broadcastInDim S512x65536x1 ![0, 1] bcast_S512x65536_S512x65536x1_0_1 (affine (V2 m ρ) c) := by
  show StableHlo.after (hostOps2 (F := Ideal)) (W3 m ρ c) (Proc.devRef .tc main_v46) = _
  after_results
  rw [W3_out]

/-! ## The column sums are the batch sums of the columns -/

theorem flat_colSum (c : Dev nD) : flat (colSum (V0 m ρ) c) = batchSum (column (argX m c)) := by
  funext j
  obtain ⟨q, rfl⟩ : ∃ q : Fin 65536, j = ix1 q := ⟨j 0, eq_ix1 j⟩
  rw [flat_apply]
  rfl

theorem flat_colSq (c : Dev nD) : flat (colSq (V0 m ρ) c) = batchSq (column (argX m c)) := by
  funext j
  obtain ⟨q, rfl⟩ : ∃ q : Fin 65536, j = ix1 q := ⟨j 0, eq_ix1 j⟩
  rw [flat_apply]
  rfl

/-! ## The result -/

/-- The result array after the run: the folded form of the per-group normalisation of the arguments. -/
theorem W4_result (c : Dev nD) : W4 m ρ c (Proc.devRef .tc main_v46)
    = result foldedForm (lands (argCg m c)) (reads (argCg m c)) (argX m c) (argGam m c) (argBet m c) := by
  rw [W4_out]
  funext i
  obtain ⟨b, q, z, rfl⟩ : ∃ (b : Fin 512) (q : Fin 65536) (z : Fin 1), i = ix3 b q z := ⟨i 0, i 1, i 2, eq_ix3 i⟩
  rw [broadcastInDim_apply ![0, 1] bcast_S512x65536_S512x65536x1_0_1 (affine (V2 m ρ) c) (ix3 b q z) (ix2 b q) (fun a => by
    match a with
    | ⟨0, _⟩ => rfl
    | ⟨1, _⟩ => rfl)]
  unfold affine
  have ex : xarr (V2 m ρ) c = argX m c := W2_arg0 m ρ c
  have ea : arow (V2 m ρ) c = scaleRow (colSum (V0 m ρ) c) (colSq (V0 m ρ) c) (argCg m c) (argGam m c) := W2_scale m ρ c
  have es : srow (V2 m ρ) c = shiftRow (colSum (V0 m ρ) c) (colSq (V0 m ρ) c) (argCg m c) (argGam m c) (argBet m c) := W2_shift m ρ c
  rw [ex, ea, es, scaleRow_apply, shiftRow_apply, flat_colSum, flat_colSq]
  rfl

/-- The run of the kernel program with its result named. -/
theorem run : θ_run defs (onTc (τ := τ) (main (F := Ideal))) ⟨m, fun _ => 0, ρ⟩ (fun r => ∀ c : Dev nD,
      r.2.mem ((c.tc : Thread nD τ).loc main_v46)
        = result foldedForm (lands (argCg m c)) (reads (argCg m c)) (argX m c) (argGam m c) (argBet m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (W4_result m ρ c), (h c).2⟩)
    (Cert.KernelIdeal.Launched.run_valued (F := Ideal) m ρ)

end Cert.KernelValue

end
-- ==== Proof.RefValue.lean ====
/-
  The value of the reference program is the per-group normalisation in its centred form.

  The reference deals the 65536 channels into 4096 groups by an accumulating scatter at the index array `sidx cg`
  (the channel-to-group array `cg` as a column), and every channel reads its group's statistics back by a gather at
  `gidx cg` (the same column with a negative entry wrapped by 4096). With `A g` the channels the scatter lands on
  group `g` and `grp j` the group the gather reads for channel `j`, the program's stages are, group by group,

      %3  g = 0 + ∑_{j ∈ A g} 1                          %7  g = max (%3 g · 512) 1 = count g
      %8  j = ∑_b x (b, j)                               %13 j = ∑_b x (b, j) · x (b, j)
      %11 g = 0 + ∑_{j ∈ A g} %8 j                       %16 g = 0 + ∑_{j ∈ A g} %13 j
      %17 g = %11 g / count g = mean g                   %25 g = 1 / √(%16 g / count g − mean g · mean g + ε) = inv g

  and entry `(b, c, 0)` of the result is `((x (b, c) − mean (grp c)) · inv (grp c)) · γ (grp c) + β (grp c)`: the
  specification's `result centredForm` at these `A` and `grp`. Each batch sum starts from the zero word, which is
  the extended real `0` and is absorbed (`0 + s = s`); each scatter starts from the zero word too, which the
  specification's `mean`, `inv` and `count` keep as written. `ref_result` is the equality of the two arrays,
  `ref_run` the reference's run with its result so rewritten.
-/
import proofs.«148616_j16836271800620_1_alg».proof.Proof.Spec
import proofs.«148616_j16836271800620_1_alg».proof.Proof.Gen.ReferenceIdeal.Read

noncomputable section

namespace Cert.RefValue

open Cert.ReferenceIdeal Cert.ReferenceIdeal.Gen Idealize.ShloMosaic Idealize.ShloMosaic.TcCoe Idealize.SL.Sem
open Idealize.ShloMosaic.ValueIdx
open Cert.ReferenceIdeal.Read
open Cert.GroupStats

/-! ## The two index arrays -/

/-- The scatters' index array: the channel-to-group array as a `65536 × 1` column. -/
def sidx (cg : IVec S65536 32) : IVec S65536x1 32 := broadcastInDim S65536x1 ![0] bcast_S65536_S65536x1_0 cg

/-- The gathers' index array: the same column, a negative entry first wrapped by `4096`. -/
def gidx (cg : IVec S65536 32) : IVec S65536x1 32 :=
  broadcastInDim S65536x1 ![0] bcast_S65536_S65536x1_0
    (select (cmpi .slt cg (broadcastInDim S65536 ![] bcast_S_S65536 (constantI S_ 32 0#32)))
      (addi cg (broadcastInDim S65536 ![] bcast_S_S65536 (constantI S_ 32 4096#32))) cg)

/-- The channels landing on each group. -/
abbrev landsOn (x1 : IVec S65536 32) : ShG.Idx → Finset ShC.Idx := landing scatter_S4096_S65536x1_S65536_n_0_0_1 (sidx x1)
/-- The group each channel reads. -/
abbrev reads (x1 : IVec S65536 32) : ShC.Idx → ShG.Idx := group gather_S4096_S65536x1_S65536_n_0_n_n_0_1_1 (gidx x1)

/-- The three scatters are all at `sidx` … -/
theorem v2_eq (x1 : IVec S65536 32) : val_main_v2 (F := Ideal) x1 = sidx x1 := rfl
theorem v10_eq (x1 : IVec S65536 32) : val_main_v10 (F := Ideal) x1 = sidx x1 := rfl
theorem v15_eq (x1 : IVec S65536 32) : val_main_v15 (F := Ideal) x1 = sidx x1 := rfl
/-- … and the four gathers all at `gidx`. -/
theorem v31_eq (x1 : IVec S65536 32) : val_main_v31 (F := Ideal) x1 = gidx x1 := rfl
theorem v41_eq (x1 : IVec S65536 32) : val_main_v41 (F := Ideal) x1 = gidx x1 := rfl
theorem v51_eq (x1 : IVec S65536 32) : val_main_v51 (F := Ideal) x1 = gidx x1 := rfl
theorem v61_eq (x1 : IVec S65536 32) : val_main_v61 (F := Ideal) x1 = gidx x1 := rfl

/-! ## The sums over the batch -/

/-- `%8`: a channel's sum over the batch (the initial `0` absorbed). -/
theorem v8_eq (x0 : FVec Ideal S512x65536 .f32) : val_main_v8 (F := Ideal) x0 = batchSum (column x0) := by
  funext j
  rw [val_main_v8_apply, val_main_cst_3_apply, Ideal.ofBits_def, Ideal.ofBits_zero_f32, zero_add]
  unfold batchSum column
  refine Finset.sum_congr rfl fun k _ => congrArg x0 ?_
  exact funext fun a => Fin.ext (by match a with | ⟨0, _⟩ => rfl | ⟨1, _⟩ => rfl)

/-- `%13`: a channel's sum of squares over the batch (the initial `0` absorbed). -/
theorem v13_eq (x0 : FVec Ideal S512x65536 .f32) : val_main_v13 (F := Ideal) x0 = batchSq (column x0) := by
  funext j
  rw [val_main_v13_apply, val_main_cst_5_apply, Ideal.ofBits_def, Ideal.ofBits_zero_f32, zero_add]
  unfold batchSq column
  refine Finset.sum_congr rfl fun k _ => ?_
  rw [val_main_v12_apply, Ideal.mulf_def]
  have h : idx_main_v13 j k = ix2 k (j 0) :=
    funext fun a => Fin.ext (by match a with | ⟨0, _⟩ => rfl | ⟨1, _⟩ => rfl)
  rw [h]; rfl

/-! ## The statistics of a group -/

/-- `%3`: the number of channels landing on group `g`, as `0 + ∑ 1`. -/
theorem v3_apply (x1 : IVec S65536 32) (g : S4096.Idx) :
    val_main_v3 (F := Ideal) x1 g = wZero + ∑ _j ∈ landsOn x1 g, wOne := by
  unfold val_main_v3
  rw [v2_eq]
  simp only [Host.scatterAdd, Ideal.hostScatterAdd_def]
  rw [hostScatterAdd_apply, val_main_v1_apply, val_main_cst_0_apply, Ideal.ofBits_def]
  refine congrArg (_ + ·) (Finset.sum_congr rfl fun j _ => ?_)
  rw [val_main_v0_apply, val_main_cst_apply, Ideal.ofBits_def]

/-- `%7`: the number of entries of group `g`, floored at one. -/
theorem v7_apply (x1 : IVec S65536 32) (g : S4096.Idx) :
    val_main_v7 (F := Ideal) x1 g = count (landsOn x1) g := by
  rw [val_main_v7_apply, val_main_v5_apply, v3_apply, val_main_v4_apply, val_main_cst_1_apply, val_main_v6_apply,
    val_main_cst_2_apply]
  simp only [Ideal.maximumf_def, Ideal.mulf_def, Ideal.ofBits_def]
  rfl

/-- `%11`: the sum of group `g`'s entries. -/
theorem v11_apply (x0 : FVec Ideal S512x65536 .f32) (x1 : IVec S65536 32) (g : S4096.Idx) :
    val_main_v11 (F := Ideal) x0 x1 g = wZero + ∑ j ∈ landsOn x1 g, batchSum (column x0) j := by
  unfold val_main_v11
  rw [v10_eq, v8_eq]
  simp only [Host.scatterAdd, Ideal.hostScatterAdd_def]
  rw [hostScatterAdd_apply, val_main_v9_apply, val_main_cst_4_apply, Ideal.ofBits_def]

/-- `%16`: the sum of the squares of group `g`'s entries. -/
theorem v16_apply (x0 : FVec Ideal S512x65536 .f32) (x1 : IVec S65536 32) (g : S4096.Idx) :
    val_main_v16 (F := Ideal) x0 x1 g = wZero + ∑ j ∈ landsOn x1 g, batchSq (column x0) j := by
  unfold val_main_v16
  rw [v15_eq, v13_eq]
  simp only [Host.scatterAdd, Ideal.hostScatterAdd_def]
  rw [hostScatterAdd_apply, val_main_v14_apply, val_main_cst_6_apply, Ideal.ofBits_def]

/-- `%17`: the mean of group `g`. -/
theorem v17_mean (x0 : FVec Ideal S512x65536 .f32) (x1 : IVec S65536 32) (g : S4096.Idx) :
    val_main_v17 (F := Ideal) x0 x1 g = mean (landsOn x1) (batchSum (column x0)) g := by
  rw [val_main_v17_apply, v11_apply, v7_apply, Ideal.hostDivf_def]
  rfl

/-- `%25`: one over the standard deviation of group `g`. -/
theorem v25_inv (x0 : FVec Ideal S512x65536 .f32) (x1 : IVec S65536 32) (g : S4096.Idx) :
    val_main_v25 (F := Ideal) x0 x1 g = inv (landsOn x1) (batchSum (column x0)) (batchSq (column x0)) g := by
  rw [val_main_v25_apply, val_main_v24_apply, val_main_cst_8_apply, val_main_v23_apply, val_main_v22_apply,
    val_main_v20_apply, val_main_v18_apply, val_main_v19_apply, v17_mean, v16_apply, v7_apply, val_main_v21_apply,
    val_main_cst_7_apply]
  simp only [Ideal.hostDivf_def, Ideal.hostUnary_sqrt_def, Ideal.addf_def, Ideal.subf_def, Ideal.mulf_def, Ideal.ofBits_def]
  rfl

/-! ## The result -/

/-- The reference's result array is the centred form of the per-group normalisation: entry `(b, c, 0)` is
    `((x (b, c) − mean g) · inv g) · γ g + β g` at the group `g` that channel `c` reads. -/
theorem ref_result (x0 : FVec Ideal S512x65536 .f32) (x1 : IVec S65536 32) (x2 x3 : FVec Ideal S4096 .f32) :
    val_main_v66 (F := Ideal) x0 x1 x2 x3
      = result centredForm
          (landing scatter_S4096_S65536x1_S65536_n_0_0_1 (sidx x1))
          (group gather_S4096_S65536x1_S65536_n_0_n_n_0_1_1 (gidx x1)) x0 x2 x3 := by
  funext i
  obtain ⟨b, c, z, rfl⟩ : ∃ b c z, i = ix3 b c z := ⟨i 0, i 1, i 2, eq_ix3 i⟩
  rw [val_main_v66_apply, val_main_v65_apply, val_main_v55_apply, val_main_v45_apply, val_main_v35_apply,
    val_main_v34_apply, val_main_v33_apply, val_main_v44_apply, val_main_v43_apply, val_main_v54_apply,
    val_main_v53_apply, val_main_v64_apply, val_main_v63_apply]
  unfold val_main_v32 val_main_v42 val_main_v52 val_main_v62
  rw [v31_eq, v41_eq, v51_eq, v61_eq]
  simp only [gather_apply]
  rw [v17_mean, v25_inv]
  simp only [Ideal.addf_def, Ideal.mulf_def, Ideal.subf_def]
  have h66 : idx_main_v66 (ix3 b c z) = ix2 b c :=
    funext fun a => Fin.ext (by match a with | ⟨0, _⟩ => rfl | ⟨1, _⟩ => rfl)
  have h33 : idx_main_v33 (idx_main_v34 (ix2 b c)) = ix1 c :=
    funext fun a => Fin.ext (by match a with | ⟨0, _⟩ => rfl)
  have h43 : idx_main_v43 (idx_main_v44 (ix2 b c)) = ix1 c :=
    funext fun a => Fin.ext (by match a with | ⟨0, _⟩ => rfl)
  have h53 : idx_main_v53 (idx_main_v54 (ix2 b c)) = ix1 c :=
    funext fun a => Fin.ext (by match a with | ⟨0, _⟩ => rfl)
  have h63 : idx_main_v63 (idx_main_v64 (ix2 b c)) = ix1 c :=
    funext fun a => Fin.ext (by match a with | ⟨0, _⟩ => rfl)
  rw [h66, h33, h43, h53, h63]
  rfl

/-- Every weakly fair execution of the reference terminates with its result array at the centred form of the
    per-group normalisation of the arguments' launch contents, the arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v66)
          = result centredForm
              (landing scatter_S4096_S65536x1_S65536_n_0_0_1 (sidx (m ((c.tc : Thread nD τ).loc main_arg1))))
              (group gather_S4096_S65536x1_S65536_n_0_n_n_0_1_1 (gidx (m ((c.tc : Thread nD τ).loc main_arg1))))
              (m ((c.tc : Thread nD τ).loc main_arg0)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono
    (fun _ h c => ⟨by rw [(h c).1, val_main_v66_eq, ref_result], (h c).2⟩)
    (Cert.ReferenceIdeal.Value.run (F := Ideal) m ρ)

end Cert.RefValue

end
-- ==== Proof.lean ====
/-
  Per-group normalisation: a two-kernel program against its one-pass reference, equal over the extended reals.

  Both programs take `x : f32[512, 65536]`, a channel-to-group table `cg : i32[65536]` and `γ, β : f32[4096]`. Both deal
  the channels into groups by an accumulating scatter over `cg` (an entry outside `[0, 4096)` lands nowhere), take per
  group the count `max (512 · #channels) 1`, the mean and the variance `E[x²] − E[x]²` of its entries from the channels'
  sums and sums of squares over the batch, and `inv = 1 / √(var + ε)`; both read the statistics back per channel by a
  gather over `cg` (a negative entry wrapped by 4096, the result clamped into range).

  The kernel program computes the channels' sums in a first kernel, folds `γ · inv` and `β − mean · (γ · inv)` per group
  on the host, gathers those two, and applies `x · a + s` in a second kernel. The reference gathers `mean`, `inv`, `γ`,
  `β` and computes `((x − mean) · inv) · γ + β`. On the reals the two are equal by distributivity. On the extended reals
  that needs every factor finite: `x`, `γ`, `β` by the precondition; the sums, the count and the mean as finite sums and
  a quotient by a real `≥ 1`; and `inv` because `var ≥ 0` (Cauchy–Schwarz over the group's `512 · #channels` entries, or
  `0` for an empty group), so `var + ε > 0` has a positive real square root.

  The frames of the two kernel programs are the generated ones; the reference's is its generated run with the result
  dropped. No rewrite was applied in idealizing the kernel program, so nothing is owed for it.
-/
import proofs.«148616_j16836271800620_1_alg».proof.Defs
import proofs.«148616_j16836271800620_1_alg».proof.Proof.Gen.Kernel
import proofs.«148616_j16836271800620_1_alg».proof.Proof.Gen.Kernel.Skeleton
import proofs.«148616_j16836271800620_1_alg».proof.Proof.Gen.Kernel.Launch
import proofs.«148616_j16836271800620_1_alg».proof.Proof.Gen.Kernel.Points
import proofs.«148616_j16836271800620_1_alg».proof.Proof.Gen.Kernel.Frame
import proofs.«148616_j16836271800620_1_alg».proof.Proof.Gen.KernelIdeal
import proofs.«148616_j16836271800620_1_alg».proof.Proof.Gen.KernelIdeal.Skeleton
import proofs.«148616_j16836271800620_1_alg».proof.Proof.Gen.KernelIdeal.Launch
import proofs.«148616_j16836271800620_1_alg».proof.Proof.Gen.KernelIdeal.Points
import proofs.«148616_j16836271800620_1_alg».proof.Proof.Gen.KernelIdeal.Frame
import proofs.«148616_j16836271800620_1_alg».proof.Proof.Gen.ReferenceIdeal
import proofs.«148616_j16836271800620_1_alg».proof.Proof.Gen.ReferenceIdeal.Run
import proofs.«148616_j16836271800620_1_alg».proof.Proof.Gen.ReferenceIdeal.Read
import proofs.«148616_j16836271800620_1_alg».proof.Proof.Gen.Pre_finite_inputs
import proofs.«148616_j16836271800620_1_alg».proof.Proof.Spec
import proofs.«148616_j16836271800620_1_alg».proof.Proof.StatsLaw
import proofs.«148616_j16836271800620_1_alg».proof.Proof.Finite
import proofs.«148616_j16836271800620_1_alg».proof.Proof.KValue
import proofs.«148616_j16836271800620_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends at the folded form of the arguments' per-group normalisation, the reference at the centred
    form; with the arguments agreeing and every float input finite the two forms are one array. -/
theorem algebraic : Cert.algebraic_KernelIdeal_ReferenceIdeal := by
  intro m ρ m' ρ' hpre hagree
  refine ⟨fun c => Cert.GroupStats.result Cert.GroupStats.foldedForm
      (Cert.KernelValue.lands (Cert.KernelValue.argCg m c)) (Cert.KernelValue.reads (Cert.KernelValue.argCg m c))
      (Cert.KernelValue.argX m c) (Cert.KernelValue.argGam m c) (Cert.KernelValue.argBet m c),
    Cert.KernelValue.run m ρ, ?_⟩
  refine (θ_run Cert.ReferenceIdeal.defs _ _).mono (fun _ h c => ⟨(h c).1.trans ?_, (h c).2⟩) (Cert.RefValue.ref_run m' ρ')
  obtain ⟨h0, h1, h2, h3⟩ := hagree c
  obtain ⟨hx, hγ, hβ⟩ := Cert.Finite.real_of_pre _ _ _ _ (hpre c)
  rw [h0, h1, h2, h3]
  exact (Cert.GroupStats.result_folded_eq_centred _ _ _ _ _ hx hγ hβ).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
